-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x512 : Shape := ⟨2, ![4096, 512]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : FVec F S4096x512 .f32) (main_arg2 : FVec F S4096x512 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S4096x512 : Shape := ⟨2, ![4096, 512]⟩
abbrev S4096 : Shape := ⟨1, ![4096]⟩
abbrev S8192x4096 : Shape := ⟨2, ![8192, 4096]⟩
abbrev S1x4096 : Shape := ⟨2, ![1, 4096]⟩
abbrev S256x4096 : Shape := ⟨2, ![256, 4096]⟩
abbrev S256x512 : Shape := ⟨2, ![256, 512]⟩

abbrev nBuf : Space → Nat
  | .hbm => 10
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x512, .f32⟩
  | .hbm, ⟨2, _⟩ => ⟨S4096x512, .f32⟩
  | .hbm, ⟨3, _⟩ => ⟨S4096, .f32⟩
  | .hbm, ⟨4, _⟩ => ⟨S8192x4096, .f32⟩
  | .hbm, ⟨5, _⟩ => ⟨S4096x512, .bf16⟩
  | .hbm, ⟨6, _⟩ => ⟨S4096x512, .bf16⟩
  | .hbm, ⟨7, _⟩ => ⟨S1x4096, .f32⟩
  | .hbm, ⟨8, _⟩ => ⟨S8192x4096, .f32⟩
  | .hbm, ⟨9, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S4096x512, .bf16⟩
  | .local _ .vmem, ⟨3, _⟩ => ⟨S4096x512, .bf16⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x2048x4096_S8192x4096 : S4x2048x4096.ShapeCasts S8192x4096
  bitsLt_bf16_f32 : FTy.bits .bf16 < FTy.bits .f32
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  shapeCasts_S8192x4096_S4x2048x4096 : S8192x4096.ShapeCasts S4x2048x4096
  dot_S256x4096_S4096x512_S256x512_1_0_0_1_n_n_wf : DotDims.WF S256x4096 S4096x512 S256x512 [1] [0] [0] [1] [] []
  dot_S256x512_S4096x512_S256x4096_1_1_0_0_n_n_wf : DotDims.WF S256x512 S4096x512 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .bf16 = 32 ∨ (Rect.block (s := S4096x512) S4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S4096x512.size a
  hwx0_2 : ∀ i : grid0.Coords, EltTy.bits .bf16 = 32 ∨ (Rect.block (s := S4096x512) S4096x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S8192x4096.size a
  hwx0_4 : ∀ i : grid0.Coords, EltTy.bits .f32 = 32 ∨ (Rect.block (s := S8192x4096) S256x4096.size (cc0_transform_4 i) (hinb0_4 i)).WholeWords (EltTy.packing .f32)

variable [Facts₀]

def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x512 : Shape := ⟨2, ![4096, 512]⟩
abbrev S4096 : Shape := ⟨1, ![4096]⟩
abbrev S512x4096 : Shape := ⟨2, ![512, 4096]⟩
abbrev S4096x4096 : Shape := ⟨2, ![4096, 4096]⟩
abbrev S1x1x4096 : Shape := ⟨3, ![1, 1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x512, .f32⟩
  | .hbm, ⟨2, _⟩ => ⟨S4096x512, .f32⟩
  | .hbm, ⟨3, _⟩ => ⟨S4096, .f32⟩
  | .hbm, ⟨4, _⟩ => ⟨S512x4096, .f32⟩
  | .hbm, ⟨5, _⟩ => ⟨S4096x4096, .f32⟩
  | .hbm, ⟨6, _⟩ => ⟨S4x2048x4096, .f32⟩
  | .hbm, ⟨7, _⟩ => ⟨S1x1x4096, .f32⟩
  | .hbm, ⟨8, _⟩ => ⟨S4x2048x4096, .f32⟩
  | .hbm, ⟨9, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S4096x512_S512x4096_1_0 : S4096x512.Transposes [1, 0] S512x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x512_S512x4096_S4096x4096_1_0_0_1_n_n_wf : DotDims.WF S4096x512 S512x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  What both programs compute, as ONE function of the four argument arrays, index by index.

  With `x : [4, 2048, 4096]`, the factors `A, B : [4096, 512]` of the weight `W = A Bᵀ` and `bias : [4096]`, the result
  at `(b, s, o)` is

      Σ_d x (b, s, d) · (Σ_r A (o, r) · B (d, r))  +  bias o,

  the linear layer `x Wᵀ + bias` with the weight written through its factors. It is stated in the order the
  reference computes it (the weight first); the kernel computes `(x B) Aᵀ` and meets it through the associativity law.
-/
import Idealize.ShloMosaic.PureOps.Ideal
import Idealize.ShloMosaic.Lib.ValueIdx

noncomputable section

namespace Cert.LowRank

open Idealize.ShloMosaic Idealize.ShloMosaic.ValueIdx

/-- The activations' shape, the factors' shape, the bias's shape. -/
abbrev ShX : Shape := ⟨3, ![4, 2048, 4096]⟩
abbrev ShF : Shape := ⟨2, ![4096, 512]⟩
abbrev ShB : Shape := ⟨1, ![4096]⟩

/-- The linear layer with the weight given by its factors: entry `(o, d)` of the weight is `Σ_r A (o, r) · B (d, r)`. -/
def linear (x : ShX.Idx → EReal) (A B : ShF.Idx → EReal) (bias : ShB.Idx → EReal) : ShX.Idx → EReal := fun i =>
  (∑ d : Fin 4096, x (ix3 (i 0) (i 1) d) * ∑ r : Fin 512, A (ix2 (i 2) r) * B (ix2 d r)) + bias (ix1 (i 2))

/-- The same layer in the order the kernel computes it: the activations against `B` first (`[.., 512]`), that against
    the rows of `A`. -/
def factored (x : ShX.Idx → EReal) (A B : ShF.Idx → EReal) (bias : ShB.Idx → EReal) : ShX.Idx → EReal := fun i =>
  (∑ r : Fin 512, (∑ d : Fin 4096, x (ix3 (i 0) (i 1) d) * B (ix2 d r)) * A (ix2 (i 2) r)) + bias (ix1 (i 2))

end Cert.LowRank

end
-- ==== Proof.SumLaw.lean ====
/-
  The algebra behind the low-rank rewrite. For a row `x` of length |D|, a factor `B` of size |D| × |R| and a row `a` of
  length |R|, all entries real numbers,

      Σ_r (Σ_d x d · B d r) · a r  =  Σ_d x d · (Σ_r a r · B d r):

  the product `(x B) aᵀ` against `x (a Bᵀ)ᵀ` — matrix multiplication is associative. Over the extended reals the
  identity needs the entries finite (distributivity fails at the infinities), so it is stated for entries that are
  coercions of reals and proved in ℝ, where it is distributivity on both sides and an exchange of the two sums.
-/
import Mathlib.Data.EReal.Basic
import Mathlib.Data.EReal.Operations
import Mathlib.Algebra.BigOperators.Ring.Finset
import Mathlib.Algebra.BigOperators.Group.Finset.Sigma
import Mathlib.Tactic.Ring

namespace Cert.LowRank

open Finset

/-- The coercion ℝ → EReal goes through a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity in ℝ: both sides are the double sum of `x d · B d r · a r`. -/
theorem assoc_real {D R : Type*} [Fintype D] [Fintype R] (x : D → ℝ) (B : D → R → ℝ) (a : R → ℝ) :
    ∑ r, (∑ d, x d * B d r) * a r = ∑ d, x d * ∑ r, a r * B d r := by
  calc ∑ r, (∑ d, x d * B d r) * a r
      = ∑ r, ∑ d, x d * B d r * a r := Finset.sum_congr rfl fun r _ => Finset.sum_mul _ _ _
    _ = ∑ d, ∑ r, x d * B d r * a r := Finset.sum_comm
    _ = ∑ d, x d * ∑ r, a r * B d r := Finset.sum_congr rfl fun d _ => by
        rw [Finset.mul_sum]; exact Finset.sum_congr rfl fun r _ => by ring

/-- The identity on the extended reals, for finite entries. -/
theorem assoc_ereal {D R : Type*} [Fintype D] [Fintype R] (x : D → EReal) (B : D → R → EReal) (a : R → EReal)
    (hx : ∀ d, ∃ q : ℝ, x d = q) (hB : ∀ d r, ∃ q : ℝ, B d r = q) (ha : ∀ r, ∃ q : ℝ, a r = q) :
    ∑ r, (∑ d, x d * B d r) * a r = ∑ d, x d * ∑ r, a r * B d r := by
  choose x' hx' using hx
  choose B' hB' using hB
  choose a' ha' using ha
  have hx'' : x = fun d => (x' d : EReal) := funext hx'
  have hB'' : B = fun d r => (B' d r : EReal) := funext fun d => funext fun r => hB' d r
  have ha'' : a = fun r => (a' r : EReal) := funext ha'
  subst hx'' hB'' ha''
  simp only [← EReal.coe_mul, ← coe_sum]
  exact congrArg _ (assoc_real x' B' a')

end Cert.LowRank
-- ==== Proof.Orders.lean ====
/-
  The two orders of the low-rank layer agree on finite inputs: `(x B) Aᵀ = x (A Bᵀ)ᵀ`, entry by entry, by the
  associativity law for finite sums of reals.
-/
import proofs.«105440_j15281493639938_1_alg».proof.Proof.Spec
import proofs.«105440_j15281493639938_1_alg».proof.Proof.SumLaw

noncomputable section

namespace Cert.LowRank

open Idealize.ShloMosaic Idealize.ShloMosaic.ValueIdx

/-- For activations and factors whose entries are all real numbers, the kernel's order and the reference's order give
    the same array (the bias needs no finiteness: it is added last on both sides). -/
theorem factored_eq_linear (x : ShX.Idx → EReal) (A B : ShF.Idx → EReal) (bias : ShB.Idx → EReal)
    (hx : ∀ i, ∃ q : ℝ, x i = q) (hA : ∀ i, ∃ q : ℝ, A i = q) (hB : ∀ i, ∃ q : ℝ, B i = q) :
    factored x A B bias = linear x A B bias := by
  funext i
  unfold factored linear
  exact congrArg (· + bias (ix1 (i 2)))
    (assoc_ereal (fun d => x (ix3 (i 0) (i 1) d)) (fun d r => B (ix2 d r)) (fun r => A (ix2 (i 2) r))
      (fun d => hx _) (fun d r => hB _) (fun r => hA _))

end Cert.LowRank

end
-- ==== Proof.RefValue.lean ====
/-
  The reference's result is the linear layer of the specification.

  The reference transposes `B`, forms the weight `A · Bᵀ` by one `dot_general` (entry `(o, d)` the sum over the rank
  index `r` of `A (o, r) · B (d, r)`), contracts the activations' last axis with the weight's second, and adds the bias
  broadcast along the two leading axes. Read one operation at a time at an index, that is the specification's term
  verbatim: only the operations' index functions have to be identified with the coordinates.
-/
import proofs.«105440_j15281493639938_1_alg».proof.Proof.Gen.ReferenceIdeal.Read
import proofs.«105440_j15281493639938_1_alg».proof.Proof.Spec

noncomputable section

namespace Cert.LowRank.Ref

open Idealize.ShloMosaic Idealize.ShloMosaic.ValueIdx Cert.ReferenceIdeal Cert.ReferenceIdeal.Read

/-- The activations are read at `(b, s, d)`. -/
theorem lidx_v2 (i : ShX.Idx) (d : Fin 4096) : lidx_main_v2 i d = ix3 (i 0) (i 1) d :=
  funext fun a => match a with | ⟨0, _⟩ => rfl | ⟨1, _⟩ => rfl | ⟨2, _⟩ => rfl

/-- The first factor is read at `(o, r)`: the weight's row is the output feature. -/
theorem lidx_v1 (i : ShX.Idx) (d : Fin 4096) (r : Fin 512) : lidx_main_v1 (ridx_main_v2 i d) r = ix2 (i 2) r :=
  funext fun a => match a with | ⟨0, _⟩ => rfl | ⟨1, _⟩ => rfl

/-- The second factor, transposed, is read at `(d, r)`: the weight's column is the contracted input feature. -/
theorem idx_v0 (i : ShX.Idx) (d : Fin 4096) (r : Fin 512) : idx_main_v0 (ridx_main_v1 (ridx_main_v2 i d) r) = ix2 d r :=
  funext fun a => match a with | ⟨0, _⟩ => rfl | ⟨1, _⟩ => rfl

/-- The bias is read at the output feature. -/
theorem idx_v3 (i : ShX.Idx) : idx_main_v3 (idx_main_v4 i) = ix1 (i 2) :=
  funext fun a => match a with | ⟨0, _⟩ => rfl

/-- The reference's last stage is the specification. -/
theorem val_eq_linear (x : ShX.Idx → EReal) (A B : ShF.Idx → EReal) (bias : ShB.Idx → EReal) :
    val_main_v5 (F := Ideal) x A B bias = linear x A B bias := by
  funext i
  rw [val_main_v5_apply, val_main_v2_apply, val_main_v4_apply, val_main_v3_apply]
  simp only [val_main_v1_apply, val_main_v0_apply, lidx_v2, lidx_v1, idx_v0, idx_v3]
  rfl

end Cert.LowRank.Ref

end
-- ==== Proof.KernelBlock.lean ====
/-
  The kernel body's arithmetic, read at one entry of the output block.

  At a grid point the body holds a 256-row block `x` of the activations, the whole factors `B` and `A` (`[4096, 512]`
  each) and the bias as one row `[1, 4096]`. It forms `x B` (a `[256, 512]` product into a zero accumulator), multiplies
  that with `Aᵀ` (a second product, contracting the rank axis of both operands) and adds the bias row to every row. At
  the ideal instance the changes of float format are the identity and a product into zero is the plain sum, so entry
  `(p, o)` of the stored block is

      Σ_r (Σ_d x (p, d) · B (d, r)) · A (o, r)  +  bias (0, o).
-/
import proofs.«105440_j15281493639938_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.LowRank.Body

open Idealize.ShloMosaic Idealize.ShloMosaic.ValueIdx Cert.KernelIdeal Cert.KernelIdeal.Gen

/-! ## The first product: rows of the block against the columns of `B` -/

theorem lhs_xb_0 (j : S256x512.Idx) (q : dot_S256x4096_S4096x512_S256x512_1_0_0_1_n_n.contr.Idx) :
    (dot_S256x4096_S4096x512_S256x512_1_0_0_1_n_n.lhsIdx j q 0).val = (j 0).val := by
  unfold DotDims.lhsIdx
  rw [dif_neg (show ¬(0 : Fin S256x4096.rank) ∈ dot_S256x4096_S4096x512_S256x512_1_0_0_1_n_n.lhsBatch by decide), dif_pos (show (0 : Fin S256x4096.rank) ∈ dot_S256x4096_S4096x512_S256x512_1_0_0_1_n_n.lhsNonContracting by decide)]
  rfl
theorem lhs_xb_1 (j : S256x512.Idx) (q : dot_S256x4096_S4096x512_S256x512_1_0_0_1_n_n.contr.Idx) :
    (dot_S256x4096_S4096x512_S256x512_1_0_0_1_n_n.lhsIdx j q 1).val = (q ⟨0, by decide⟩).val :=
  dot_S256x4096_S4096x512_S256x512_1_0_0_1_n_n.lhsIdx_val_of_single rfl j q
theorem rhs_xb_0 (j : S256x512.Idx) (q : dot_S256x4096_S4096x512_S256x512_1_0_0_1_n_n.contr.Idx) :
    (dot_S256x4096_S4096x512_S256x512_1_0_0_1_n_n.rhsIdx j q 0).val = (q ⟨0, by decide⟩).val :=
  dot_S256x4096_S4096x512_S256x512_1_0_0_1_n_n.rhsIdx_val_of_single rfl j q
theorem rhs_xb_1 (j : S256x512.Idx) (q : dot_S256x4096_S4096x512_S256x512_1_0_0_1_n_n.contr.Idx) :
    (dot_S256x4096_S4096x512_S256x512_1_0_0_1_n_n.rhsIdx j q 1).val = (j 1).val := by
  unfold DotDims.rhsIdx
  rw [dif_neg (show ¬(1 : Fin S4096x512.rank) ∈ dot_S256x4096_S4096x512_S256x512_1_0_0_1_n_n.rhsBatch by decide), dif_pos (show (1 : Fin S4096x512.rank) ∈ dot_S256x4096_S4096x512_S256x512_1_0_0_1_n_n.rhsNonContracting by decide)]
  rfl

/-- Entry `(p, r)` of `x B` is the sum over the input feature `d` of `x (p, d) · B (d, r)`. -/
theorem xb_apply (l : FVec Ideal S256x4096 .bf16) (b : FVec Ideal S4096x512 .bf16) (p : Fin 256) (r : Fin 512) :
    matmul dot_S256x4096_S4096x512_S256x512_1_0_0_1_n_n none l b (constant (F := Ideal) S256x512 .f32 0x00000000#32) (ix2 p r)
      = ∑ d : Fin 4096, l (ix2 p d) * b (ix2 d r) := by
  simp only [matmul]
  rw [Ideal.matmul_constant_zero_apply, ← Equiv.sum_comp (ValueIdx.contrEquiv1 dot_S256x4096_S4096x512_S256x512_1_0_0_1_n_n 4096 rfl rfl).symm]
  refine Finset.sum_congr rfl fun k _ => ?_
  have hk := ValueIdx.contrEquiv1_symm_val dot_S256x4096_S4096x512_S256x512_1_0_0_1_n_n 4096 rfl rfl k
  have el : dot_S256x4096_S4096x512_S256x512_1_0_0_1_n_n.lhsIdx (ix2 p r) ((ValueIdx.contrEquiv1 dot_S256x4096_S4096x512_S256x512_1_0_0_1_n_n 4096 rfl rfl).symm k) = ix2 p k := funext fun a => Fin.ext (by
    match a with
    | ⟨0, _⟩ => exact lhs_xb_0 _ _
    | ⟨1, _⟩ => exact (lhs_xb_1 _ _).trans hk)
  have er : dot_S256x4096_S4096x512_S256x512_1_0_0_1_n_n.rhsIdx (ix2 p r) ((ValueIdx.contrEquiv1 dot_S256x4096_S4096x512_S256x512_1_0_0_1_n_n 4096 rfl rfl).symm k) = ix2 k r := funext fun a => Fin.ext (by
    match a with
    | ⟨0, _⟩ => exact (rhs_xb_0 _ _).trans hk
    | ⟨1, _⟩ => exact rhs_xb_1 _ _)
  rw [el, er]

/-! ## The second product: rows of `x B` against the ROWS of `A` (both operands contract their rank axis) -/

theorem lhs_at_0 (j : S256x4096.Idx) (q : dot_S256x512_S4096x512_S256x4096_1_1_0_0_n_n.contr.Idx) :
    (dot_S256x512_S4096x512_S256x4096_1_1_0_0_n_n.lhsIdx j q 0).val = (j 0).val := by
  unfold DotDims.lhsIdx
  rw [dif_neg (show ¬(0 : Fin S256x512.rank) ∈ dot_S256x512_S4096x512_S256x4096_1_1_0_0_n_n.lhsBatch by decide), dif_pos (show (0 : Fin S256x512.rank) ∈ dot_S256x512_S4096x512_S256x4096_1_1_0_0_n_n.lhsNonContracting by decide)]
  rfl
theorem lhs_at_1 (j : S256x4096.Idx) (q : dot_S256x512_S4096x512_S256x4096_1_1_0_0_n_n.contr.Idx) :
    (dot_S256x512_S4096x512_S256x4096_1_1_0_0_n_n.lhsIdx j q 1).val = (q ⟨0, by decide⟩).val :=
  dot_S256x512_S4096x512_S256x4096_1_1_0_0_n_n.lhsIdx_val_of_single rfl j q
theorem rhs_at_0 (j : S256x4096.Idx) (q : dot_S256x512_S4096x512_S256x4096_1_1_0_0_n_n.contr.Idx) :
    (dot_S256x512_S4096x512_S256x4096_1_1_0_0_n_n.rhsIdx j q 0).val = (j 1).val := by
  unfold DotDims.rhsIdx
  rw [dif_neg (show ¬(0 : Fin S4096x512.rank) ∈ dot_S256x512_S4096x512_S256x4096_1_1_0_0_n_n.rhsBatch by decide), dif_pos (show (0 : Fin S4096x512.rank) ∈ dot_S256x512_S4096x512_S256x4096_1_1_0_0_n_n.rhsNonContracting by decide)]
  rfl
theorem rhs_at_1 (j : S256x4096.Idx) (q : dot_S256x512_S4096x512_S256x4096_1_1_0_0_n_n.contr.Idx) :
    (dot_S256x512_S4096x512_S256x4096_1_1_0_0_n_n.rhsIdx j q 1).val = (q ⟨0, by decide⟩).val :=
  dot_S256x512_S4096x512_S256x4096_1_1_0_0_n_n.rhsIdx_val_of_single rfl j q

/-- Entry `(p, o)` of `y Aᵀ` is the sum over the rank index `r` of `y (p, r) · A (o, r)`. -/
theorem yat_apply (y : FVec Ideal S256x512 .bf16) (a : FVec Ideal S4096x512 .bf16) (p : Fin 256) (o : Fin 4096) :
    matmul dot_S256x512_S4096x512_S256x4096_1_1_0_0_n_n none y a (constant (F := Ideal) S256x4096 .f32 0x00000000#32) (ix2 p o)
      = ∑ r : Fin 512, y (ix2 p r) * a (ix2 o r) := by
  simp only [matmul]
  rw [Ideal.matmul_constant_zero_apply, ← Equiv.sum_comp (ValueIdx.contrEquiv1 dot_S256x512_S4096x512_S256x4096_1_1_0_0_n_n 512 rfl rfl).symm]
  refine Finset.sum_congr rfl fun k _ => ?_
  have hk := ValueIdx.contrEquiv1_symm_val dot_S256x512_S4096x512_S256x4096_1_1_0_0_n_n 512 rfl rfl k
  have el : dot_S256x512_S4096x512_S256x4096_1_1_0_0_n_n.lhsIdx (ix2 p o) ((ValueIdx.contrEquiv1 dot_S256x512_S4096x512_S256x4096_1_1_0_0_n_n 512 rfl rfl).symm k) = ix2 p k := funext fun a => Fin.ext (by
    match a with
    | ⟨0, _⟩ => exact lhs_at_0 _ _
    | ⟨1, _⟩ => exact (lhs_at_1 _ _).trans hk)
  have er : dot_S256x512_S4096x512_S256x4096_1_1_0_0_n_n.rhsIdx (ix2 p o) ((ValueIdx.contrEquiv1 dot_S256x512_S4096x512_S256x4096_1_1_0_0_n_n 512 rfl rfl).symm k) = ix2 o k := funext fun a => Fin.ext (by
    match a with
    | ⟨0, _⟩ => exact rhs_at_0 _ _
    | ⟨1, _⟩ => exact (rhs_at_1 _ _).trans hk)
  rw [el, er]

/-! ## The stored value -/

/-- Entry `(p, o)` of the block the body stores: `(x B) Aᵀ` plus the bias row, from the four loaded blocks. -/
theorem stored_apply (x : Vec Ideal S256x4096 .f32) (b a : Vec Ideal S4096x512 .bf16) (bias : Vec Ideal S1x4096 .f32)
    (p : Fin 256) (o : Fin 4096) :
    k0_pay1 (F := Ideal) x b a bias (ix2 p o)
      = (∑ r : Fin 512, (∑ d : Fin 4096, x (ix2 p d) * b (ix2 d r)) * a (ix2 o r)) + bias (ix2 (0 : Fin 1) o) := by
  unfold k0_pay1
  rw [addf_apply, yat_apply, ValueIdx.broadcastTo_1b_ab_apply]
  simp only [shapeCast_self, truncf_apply, xb_apply]

end Cert.LowRank.Body

end
-- ==== Proof.KernelValue.lean ====
/-
  The kernel program's result array, as a function of the four argument arrays.

  Before the region @main lays the activations out as `[8192, 4096]` rows, changes the factors' float format (the identity
  at the ideal instance) and makes the bias a `[1, 4096]` row. The region's grid has 32 points; point `t` reads rows
  `256 t … 256 t + 255` of the activations and the three other arrays whole, and writes rows `256 t … 256 t + 255` of the
  `[8192, 4096]` output: so the output array's row `i` is the body's arithmetic on row `i` of the activations, and the
  32 blocks tile the array. After the region the output is laid out as `[4, 2048, 4096]`: entry `(b, s, o)` is entry
  `(2048 b + s, o)` of the region's output, which depends on row `2048 b + s` of the reshaped activations, that is on
  `x (b, s, ·)`.
-/
import proofs.«105440_j15281493639938_1_alg».proof.Proof.Gen.KernelIdeal.Frame
import proofs.«105440_j15281493639938_1_alg».proof.Proof.KernelBlock
import proofs.«105440_j15281493639938_1_alg».proof.Proof.Spec
import Idealize.ShloMosaic.Lib.Pipeline.Value
import Idealize.ShloMosaic.Lib.ValueLayout
import Idealize.ShloMosaic.Lib.StableHlo.Run

set_option maxRecDepth 16384

noncomputable section

open Idealize.ShloMosaic Idealize.ShloMosaic.TcCoe Idealize.SL.Sem
open Idealize.ShloMosaic.Pipeline (Dat)

namespace Cert.LowRank.Kernel

open Idealize.ShloMosaic.ValueIdx Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The region's output as one function of the four arrays the region reads: row `i 0` of the activations through
    both products, plus the bias row. -/
def rows (X : S8192x4096.Idx → EReal) (At Bt : S4096x512.Idx → EReal) (b2 : S1x4096.Idx → EReal) : S8192x4096.Idx → EReal := fun i =>
  (∑ r : Fin 512, (∑ d : Fin 4096, X (ix2 (i 0) d) * Bt (ix2 d r)) * At (ix2 (i 1) r)) + b2 (ix2 (0 : Fin 1) (i 1))

/-- The printed index maps over the grid: the activations' and the output's block row is the point, every other block
    index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The activations' block at point `t` is rows `256 t …` of the reshaped activations. -/
theorem xblk_apply (c : Dev nD) (t : Fin cfg0.N) (y : S256x4096.Idx) (k : S8192x4096.Idx)
    (hk0 : (k 0).val = t.val * 256 + (y 0).val) (hk1 : (k 1).val = (y 1).val) :
    (iblk m c 0 t : Vec Ideal S256x4096 .f32) y = (V m c main_v0 : S8192x4096.Idx → EReal) k := by
  obtain ⟨e0, e1, -⟩ := idx_facts t
  unfold iblk
  rw [View.read_apply]
  show V m c main_v0 _ = V m c main_v0 _
  congr 1
  funext a
  apply Fin.ext
  match a with
  | ⟨0, _⟩ => show win0_0.index t 0 * 256 + 1 * (y 0).val = (k 0).val; rw [e0, hk0]; omega
  | ⟨1, _⟩ => show win0_0.index t 1 * 4096 + 1 * (y 1).val = (k 1).val; rw [e1, hk1]; omega

/-- The first factor's block is the whole array, at every point. -/
theorem ablk_apply (c : Dev nD) (t : Fin cfg0.N) (y : S4096x512.Idx) :
    (iblk m c 1 t : Vec Ideal S4096x512 .bf16) y = (V m c main_v1 : S4096x512.Idx → EReal) y := by
  obtain ⟨-, -, e0, e1, -⟩ := idx_facts t
  unfold iblk
  rw [View.read_apply]
  show V m c main_v1 _ = V m c main_v1 _
  congr 1
  funext a
  apply Fin.ext
  match a with
  | ⟨0, _⟩ => show win0_1.index t 0 * 4096 + 1 * (y 0).val = (y 0).val; rw [e0]; omega
  | ⟨1, _⟩ => show win0_1.index t 1 * 512 + 1 * (y 1).val = (y 1).val; rw [e1]; omega

/-- The second factor's block is the whole array, at every point. -/
theorem bblk_apply (c : Dev nD) (t : Fin cfg0.N) (y : S4096x512.Idx) :
    (iblk m c 2 t : Vec Ideal S4096x512 .bf16) y = (V m c main_v2 : S4096x512.Idx → EReal) y := by
  obtain ⟨-, -, -, -, e0, e1, -⟩ := idx_facts t
  unfold iblk
  rw [View.read_apply]
  show V m c main_v2 _ = V m c main_v2 _
  congr 1
  funext a
  apply Fin.ext
  match a with
  | ⟨0, _⟩ => show win0_2.index t 0 * 4096 + 1 * (y 0).val = (y 0).val; rw [e0]; omega
  | ⟨1, _⟩ => show win0_2.index t 1 * 512 + 1 * (y 1).val = (y 1).val; rw [e1]; omega

/-- The bias row's block is the whole row, at every point. -/
theorem biasblk_apply (c : Dev nD) (t : Fin cfg0.N) (y : S1x4096.Idx) :
    (iblk m c 3 t : Vec Ideal S1x4096 .f32) y = (V m c main_v3 : S1x4096.Idx → EReal) y := by
  obtain ⟨-, -, -, -, -, -, e0, e1, -⟩ := idx_facts t
  unfold iblk
  rw [View.read_apply]
  show V m c main_v3 _ = V m c main_v3 _
  congr 1
  funext a
  apply Fin.ext
  match a with
  | ⟨0, _⟩ => show win0_3.index t 0 * 1 + 1 * (y 0).val = (y 0).val; rw [e0]; omega
  | ⟨1, _⟩ => show win0_3.index t 1 * 4096 + 1 * (y 1).val = (y 1).val; rw [e1]; omega

/-- The body's stored block against `rows`, over plain vectors: if the activations' block holds row `k 0` of `X` at its
    row `p`, and the three other blocks are the whole arrays, the stored entry `(p, o)` is `rows` at `k = (k 0, o)`. -/
theorem rows_block (X : S8192x4096.Idx → EReal) (At Bt : S4096x512.Idx → EReal) (b2 : S1x4096.Idx → EReal)
    (x : Vec Ideal S256x4096 .f32) (b a : Vec Ideal S4096x512 .bf16) (bias : Vec Ideal S1x4096 .f32)
    (p : Fin 256) (o : Fin 4096) (k : S8192x4096.Idx)
    (hx : ∀ d : Fin 4096, x (ix2 p d) = X (ix2 (k 0) d)) (hb : ∀ y, b y = Bt y) (ha : ∀ y, a y = At y)
    (hbias : ∀ y, bias y = b2 y) (hk : (k 1).val = o.val) :
    k0_pay1 (F := Ideal) x b a bias (ix2 p o) = rows X At Bt b2 k := by
  rw [Body.stored_apply]
  unfold rows
  have e1 : k 1 = o := Fin.ext hk
  rw [e1]
  simp only [hx, hb, ha, hbias]

/-- What point `t` writes back is block `t` of `rows` of the arrays as the region finds them. -/
theorem flushed_eq (c : Dev nD) (t : Fin cfg0.N) :
    (dats m 0 c).flushed 4 t = ((cfg0.win 4).blk t).view.read (Elt Ideal) (rows (V m c main_v0) (V m c main_v1) (V m c main_v2) (V m c main_v3)) := by
  show (cfg0.win 4).cut (grid0.coords t) ((dats m 0 c).after 4 t) = _
  rw [after0_4]
  unfold out0_4
  rw [View.canon_unit_zero hz]
  simp only [View.ld_unit_zero (S := S256x4096) hz, View.ld_unit_zero (S := S4096x512) hz, View.ld_unit_zero (S := S1x4096) hz]
  obtain ⟨-, -, -, -, -, -, -, -, e8, e9⟩ := idx_facts t
  funext j
  show k0_pay1 (F := Ideal) (iblk m c 0 t) (iblk m c 2 t) (iblk m c 1 t) (iblk m c 3 t) j
    = rows (V m c main_v0) (V m c main_v1) (V m c main_v2) (V m c main_v3) (((cfg0.win 4).blk t).view.emb j)
  have hcol : ((((cfg0.win 4).blk t).view.emb j) 1).val = (j 1).val := by
    show win0_4.index t 1 * 4096 + 1 * (j 1).val = (j 1).val; rw [e9]; omega
  have hrow : ((((cfg0.win 4).blk t).view.emb j) 0).val = t.val * 256 + (j 0).val := by
    show win0_4.index t 0 * 256 + 1 * (j 0).val = _; rw [e8]; omega
  refine (congrArg (k0_pay1 (F := Ideal) (iblk m c 0 t) (iblk m c 2 t) (iblk m c 1 t) (iblk m c 3 t))
    (eq_ix2 (n0 := 256) (n1 := 4096) j)).trans ?_
  exact rows_block (V m c main_v0) (V m c main_v1) (V m c main_v2) (V m c main_v3)
    (iblk m c 0 t) (iblk m c 2 t) (iblk m c 1 t) (iblk m c 3 t) (j 0) (j 1) (((cfg0.win 4).blk t).view.emb j)
    (fun d => xblk_apply m c t (ix2 (j 0) d) (ix2 ((((cfg0.win 4).blk t).view.emb j) 0) d) hrow rfl)
    (bblk_apply m c t) (ablk_apply m c t) (biasblk_apply m c t) hcol

/-- An index of the output array is in point `t`'s block iff each coordinate is in the block's range on its axis. -/
theorem mem_blk (t : Fin cfg0.N) (i : S8192x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v4).slice (win0_4.rect t)).set ↔ _
  rw [View.set_slice_whole, Rect.mem_set_unit]
  exact Iff.rfl

/-- Row `i 0` lies in the block of point `⌊i 0 / 256⌋`: the 32 blocks tile the output. -/
theorem cover (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 32 := N_0
  refine ⟨⟨(i 0).val / 256, by rw [hN]; omega⟩, flush0_4 _, ?_⟩
  rw [mem_blk]
  obtain ⟨-, -, -, -, -, -, -, -, e8, e9⟩ := idx_facts ⟨(i 0).val / 256, by rw [hN]; omega⟩
  intro a
  match a with
  | ⟨0, _⟩ =>
    show win0_4.index ⟨(i 0).val / 256, _⟩ 0 * 256 ≤ (i 0).val ∧ (i 0).val < win0_4.index ⟨(i 0).val / 256, _⟩ 0 * 256 + 256
    rw [e8]; show (i 0).val / 256 * 256 ≤ (i 0).val ∧ (i 0).val < (i 0).val / 256 * 256 + 256; omega
  | ⟨1, _⟩ =>
    show win0_4.index ⟨(i 0).val / 256, _⟩ 1 * 4096 ≤ (i 1).val ∧ (i 1).val < win0_4.index ⟨(i 0).val / 256, _⟩ 1 * 4096 + 4096
    rw [e9]; omega

/-- The region's output array after the run. -/
theorem final (c : Dev nD) :
    (dats m 0 c).arrAt 4 cfg0.N = rows (V m c main_v0) (V m c main_v1) (V m c main_v2) (V m c main_v3) :=
  (dats m 0 c).arrAt_eq_of_cover 4 _ (fun t _ => flushed_eq m c t) cover

/-! ## The host operations before the region -/

theorem V_v0 (c : Dev nD) : (V m c main_v0 : S8192x4096.Idx → EReal)
    = shapeCast S8192x4096 (m ((c : Thread nD τ).loc main_arg0)) shapeCasts_S4x2048x4096_S8192x4096 := by
  show StableHlo.after hostOps0 (fun b => m (c, b)) (Proc.devRef .tc main_v0) = _
  after_results
  rfl

theorem V_v1 (c : Dev nD) : (V m c main_v1 : S4096x512.Idx → EReal) = m ((c : Thread nD τ).loc main_arg1) := by
  show StableHlo.after hostOps0 (fun b => m (c, b)) (Proc.devRef .tc main_v1) = _
  after_results
  rfl

theorem V_v2 (c : Dev nD) : (V m c main_v2 : S4096x512.Idx → EReal) = m ((c : Thread nD τ).loc main_arg2) := by
  show StableHlo.after hostOps0 (fun b => m (c, b)) (Proc.devRef .tc main_v2) = _
  after_results
  rfl

theorem V_v3 (c : Dev nD) : (V m c main_v3 : S1x4096.Idx → EReal)
    = shapeCast S1x4096 (m ((c : Thread nD τ).loc main_arg3)) shapeCasts_S4096_S1x4096 := by
  show StableHlo.after hostOps0 (fun b => m (c, b)) (Proc.devRef .tc main_v3) = _
  after_results
  rfl

/-! ## The host operation after the region -/

theorem tail_v5 (c : Dev nD) :
    (Pipeline.afterTail₀ cfgs (dats m) 0 (V0 m) [hostOps1] c main_v5 : S4x2048x4096.Idx → EReal)
      = shapeCast S4x2048x4096 ((dats m 0 c).arrAt 4 cfg0.N) shapeCasts_S8192x4096_S4x2048x4096 := by
  unfold Pipeline.afterTail₀
  show StableHlo.after hostOps1 _ (Proc.devRef .tc main_v5) = _
  after_results
  have e := Pipeline.withArrays_arr spec0 launch0.win.arr_inj c (V0 m c) (fun w => (dats m 0 c).arrAt w cfg0.N) (4 : Fin 5)
  exact congrArg (fun A => shapeCast S4x2048x4096 A shapeCasts_S8192x4096_S4x2048x4096) e

/-! ## The layouts around the region, read at an index -/

/-- Laying the activations out as rows before the region and the output back as `[4, 2048, 4096]` after it turns
    `rows` into the layer in the kernel's order: row `2048 b + s` of the reshaped activations is `x (b, s, ·)`, and the
    bias row's entry `(0, o)` is `bias o`. -/
theorem rows_reshape (x : ShX.Idx → EReal) (A B : ShF.Idx → EReal) (bias : ShB.Idx → EReal)
    (h1 : ShX.ShapeCasts S8192x4096) (h2 : ShB.ShapeCasts S1x4096) (h3 : S8192x4096.ShapeCasts ShX) :
    shapeCast ShX (rows (shapeCast S8192x4096 x h1) A B (shapeCast S1x4096 bias h2)) h3 = factored x A B bias := by
  funext i
  obtain ⟨b, s, o, rfl⟩ : ∃ (b : Fin 4) (s : Fin 2048) (o : Fin 4096), i = ix3 b s o := ⟨i 0, i 1, i 2, eq_ix3 i⟩
  have hrow : b.val * 2048 + s.val < 8192 := by have := b.isLt; have := s.isLt; omega
  have hx : ∀ d : Fin 4096, shapeCast S8192x4096 x h1 (ix2 (⟨b.val * 2048 + s.val, hrow⟩ : Fin 8192) d) = x (ix3 b s d) := fun d =>
    shapeCast_apply x h1 _ _ (by
      rw [Shape.rowMajor_val_two, Shape.rowMajor_val_three]
      show (b.val * 2048 + s.val) * 4096 + d.val = (b.val * 2048 + s.val) * 4096 + d.val
      rfl)
  have hbias : shapeCast S1x4096 bias h2 (ix2 (0 : Fin 1) o) = bias (ix1 o) := ValueIdx.shapeCast_a_1a_apply bias h2 0 o
  refine (shapeCast_apply _ h3 (ix3 b s o) (ix2 (⟨b.val * 2048 + s.val, hrow⟩ : Fin 8192) o)
    (by
      rw [Shape.rowMajor_val_two, Shape.rowMajor_val_three]
      show (b.val * 2048 + s.val) * 4096 + o.val = (b.val * 2048 + s.val) * 4096 + o.val
      rfl)).trans ?_
  show (∑ r : Fin 512, (∑ d : Fin 4096, shapeCast S8192x4096 x h1 (ix2 (⟨b.val * 2048 + s.val, hrow⟩ : Fin 8192) d) * B (ix2 d r)) * A (ix2 o r))
      + shapeCast S1x4096 bias h2 (ix2 (0 : Fin 1) o)
    = (∑ r : Fin 512, (∑ d : Fin 4096, x (ix3 b s d) * B (ix2 d r)) * A (ix2 o r)) + bias (ix1 o)
  simp only [hx, hbias]

/-- The program's result array after the run, from the arguments as launched. -/
theorem value (c : Dev nD) :
    (Pipeline.afterTail₀ cfgs (dats m) 0 (V0 m) [hostOps1] c main_v5 : S4x2048x4096.Idx → EReal)
      = factored (m ((c : Thread nD τ).loc main_arg0)) (m ((c : Thread nD τ).loc main_arg1))
          (m ((c : Thread nD τ).loc main_arg2)) (m ((c : Thread nD τ).loc main_arg3)) := by
  rw [tail_v5, final, V_v0, V_v1, V_v2, V_v3]
  exact rows_reshape _ _ _ _ _ _ _

/-! ## The run, read -/

/-- Every weakly fair execution of the idealized kernel program ends with its result at the layer in the kernel's order
    and the four arguments as launched. -/
theorem run : θ_run defs (onTc (τ := τ) (main (F := Ideal))) ⟨m, fun _ => 0, ρ⟩ fun r => ∀ c : Dev nD,
      r.2.mem ((c.tc : Thread nD τ).loc main_v5) = factored (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
      ⟨((h c).2 main_v5 (Pipeline.mem_restRefs_of main_v5 (by decide) (by decide))).trans (value m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.LowRank.Kernel

end
-- ==== Proof.Finite.lean ====
/-
  From the precondition to real entries.

  The precondition says of each of the four argument arrays that every entry `v` has `|v| < +∞`, as one bit: the `and`
  of four reductions by `and` of the comparisons. On the extended reals `|v| = max v (-v)` is below `⊤` exactly when
  `v` is neither infinity, that is when `v` is (the coercion of) a real number.
-/
import proofs.«105440_j15281493639938_1_alg».proof.Proof.Gen.Pre_finite_inputs
import Idealize.ShloMosaic.PureOps.Ideal
import Idealize.ShloMosaic.Lib.ReduceAll
import Idealize.ShloMosaic.Lib.ValueIdx

noncomputable section

namespace Cert.LowRank.Finite

open Idealize.ShloMosaic Idealize.ShloMosaic.ValueIdx Cert.Pre_finite_inputs Cert.Pre_finite_inputs.Gen

instance : Subsingleton S_.Idx := ⟨fun a b => funext fun d => d.elim0⟩

/-- An extended real whose absolute value is below the f32 pattern of `+∞` is a real number. -/
theorem real_of_abs_lt (v : EReal)
    (h : Ideal.cmp .olt (max v (-v)) (Ideal.ofBits .f32 0x7F800000#32) = 1#1) : ∃ q : ℝ, v = q := by
  have htop : Ideal.ofBits .f32 0x7F800000#32 = ⊤ := by simp [Ideal.ofBits, Ideal.ieee]
  rw [htop] at h
  induction v using EReal.rec with
  | bot => simp [Ideal.cmp] at h
  | top => simp [Ideal.cmp] at h
  | coe r => exact ⟨r, rfl⟩

/-- One array's `jnp.all (|x| < inf)` being true gives every entry real. -/
theorem all_real {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant (F := Ideal) S_ .f32 0x7F800000#32)))
      (constantI S_ 1 1#1) hr hu ix0 = 1#1) (i : s.Idx) : ∃ q : ℝ, x i = q :=
  real_of_abs_lt (x i) (Host.reduce_andi_all _ _ hr hu ix0 h i)

/-- The precondition gives all four arrays real entries. -/
theorem real_of_pre (x0 : FVec Ideal S4x2048x4096 .f32) (x1 x2 : FVec Ideal S4096x512 .f32) (x3 : FVec Ideal S4096 .f32)
    (h : fn (F := Ideal) x0 x1 x2 x3 = fun _ => 1#1) :
    (∀ i, ∃ q : ℝ, x0 i = q) ∧ (∀ i, ∃ q : ℝ, x1 i = q) ∧ (∀ i, ∃ q : ℝ, x2 i = q) ∧ (∀ i, ∃ q : ℝ, x3 i = q) := by
  have h0 := congrFun h ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨all_real x0 _ _ _ h0', all_real x1 _ _ _ h1, all_real x2 _ _ _ h2, all_real x3 _ _ _ h3⟩

end Cert.LowRank.Finite

end
-- ==== Proof.lean ====
/-
  A linear layer whose weight is given by two rank-512 factors, `W = A Bᵀ` with `A, B : [4096, 512]`, applied to
  `x : [4, 2048, 4096]` with a bias: the kernel never forms the `[4096, 4096]` weight but computes `(x B) Aᵀ + bias`,
  tile of 256 rows by tile; the reference forms the weight and computes `x Wᵀ + bias`.

  At the ideal instance both are exact sums of products of extended reals, and the two orders agree because matrix
  multiplication is associative: `Σ_r (Σ_d x_d B_{d r}) A_{o r} = Σ_d x_d (Σ_r A_{o r} B_{d r})` (Proof/SumLaw.lean). That
  law is distributivity, which on the extended reals needs the entries finite: this is where the precondition is used
  (Proof/Finite.lean: `|v| < +∞` for every entry gives real entries).

  The pieces: Proof/Spec.lean states the layer in both orders; Proof/Orders.lean joins them on finite inputs;
  Proof/RefValue.lean reads the reference's run as the reference's order; Proof/KernelBlock.lean reads the kernel body's
  stored block entry by entry; Proof/KernelValue.lean carries that through the grid's 32 row blocks and the layouts
  around the region to the program's result. The frames of the two kernel programs are the generated ones; the
  reference's frame is its run with the result dropped; the idealization rewrote no operation, so `preserves` is trivial.
-/
import proofs.«105440_j15281493639938_1_alg».proof.Defs
import proofs.«105440_j15281493639938_1_alg».proof.Proof.Gen.Kernel
import proofs.«105440_j15281493639938_1_alg».proof.Proof.Gen.Kernel.Skeleton
import proofs.«105440_j15281493639938_1_alg».proof.Proof.Gen.Kernel.Launch
import proofs.«105440_j15281493639938_1_alg».proof.Proof.Gen.Kernel.Points
import proofs.«105440_j15281493639938_1_alg».proof.Proof.Gen.Kernel.Frame
import proofs.«105440_j15281493639938_1_alg».proof.Proof.Gen.KernelIdeal
import proofs.«105440_j15281493639938_1_alg».proof.Proof.Gen.KernelIdeal.Skeleton
import proofs.«105440_j15281493639938_1_alg».proof.Proof.Gen.KernelIdeal.Launch
import proofs.«105440_j15281493639938_1_alg».proof.Proof.Gen.KernelIdeal.Points
import proofs.«105440_j15281493639938_1_alg».proof.Proof.Gen.KernelIdeal.Frame
import proofs.«105440_j15281493639938_1_alg».proof.Proof.Gen.ReferenceIdeal
import proofs.«105440_j15281493639938_1_alg».proof.Proof.Gen.Pre_finite_inputs
import proofs.«105440_j15281493639938_1_alg».proof.Proof.Gen.ReferenceIdeal.Run
import proofs.«105440_j15281493639938_1_alg».proof.Proof.Gen.ReferenceIdeal.Read
import proofs.«105440_j15281493639938_1_alg».proof.Proof.Orders
import proofs.«105440_j15281493639938_1_alg».proof.Proof.RefValue
import proofs.«105440_j15281493639938_1_alg».proof.Proof.KernelValue
import proofs.«105440_j15281493639938_1_alg».proof.Proof.Finite
import Idealize.ShloMosaic.Adequacy
import Idealize.ShloMosaic.Init

noncomputable section

namespace Cert.Proof

open Idealize.ShloMosaic Idealize.ShloMosaic.TcCoe Idealize.SL.Sem

/-- The reference's frame: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the same result: the kernel's at the layer in the order `(x B) Aᵀ`, the reference's
    at the order `x (A Bᵀ)ᵀ`, of arguments that agree and are finite. -/
theorem algebraic : Cert.algebraic_KernelIdeal_ReferenceIdeal := by
  intro m ρ m' ρ' hpre hagree
  refine ⟨fun c => Cert.LowRank.factored (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.LowRank.Kernel.run m ρ, ?_⟩
  refine (θ_run Cert.ReferenceIdeal.defs _ _).mono (fun _ h c => ⟨?_, (h c).2⟩) (Cert.ReferenceIdeal.Value.run (F := Ideal) m' ρ')
  obtain ⟨hx, hA, hB, -⟩ := Cert.LowRank.Finite.real_of_pre _ _ _ _ (hpre c)
  rw [(h c).1, Cert.ReferenceIdeal.Read.val_main_v5_eq, Cert.LowRank.Ref.val_eq_linear,
    (hagree c).1, (hagree c).2.1, (hagree c).2.2.1, (hagree c).2.2.2]
  exact (Cert.LowRank.factored_eq_linear _ _ _ _ hx hA hB).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
